-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32x16 : S_.BroadcastsInDim S32x16 (![] : Fin 0 → Fin S32x16.rank)
  reducesTo_S32x16_S_d0_1 : S32x16.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_v13 : IVec S_ 1) (main_v16 : IVec S3200000 1) : IVec S_ 1 :=
  let main_c_5 : IVec S_ 1 := constantI S_ 1 1#1
  let main_v17 : IVec S_ 1 := (fun x v => Host.reduce IntOp.andi x v reducesTo_S3200000_S_d0 h_S_) main_v16 main_c_5
  let main_v18 : IVec S_ 1 := andi main_v13 main_v17
  main_v18

def fn {F : FTy → Type} [FloatOps F] (main_arg0 : FVec F S100000x512 .f32) (main_arg1 : FVec F S512x32 .f32) (main_arg2 : FVec F S32x16 .f32) (main_arg3 : IVec S3200000 32) (main_arg4 : IVec S3200000 32) (main_arg5 : FVec F S3200000 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S3200000 .f32 := Host.absf main_arg5
  let main_cst_4 : FVec F S_ .f32 := constant S_ .f32 0x7F800000#32
  let main_v15 : FVec F S3200000 .f32 := broadcastInDim S3200000 ![] bcast_S_S3200000 main_cst_4
  let main_v16 : IVec S3200000 1 := cmpf .olt main_v14 main_v15
  fn_part1 (F := F) main_v13 main_v16
-- ==== Kernel.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S100000x32 : Shape := ⟨2, ![100000, 32]⟩
abbrev S2000x512 : Shape := ⟨2, ![2000, 512]⟩
abbrev S2000x32 : Shape := ⟨2, ![2000, 32]⟩
abbrev S3200000x1 : Shape := ⟨2, ![3200000, 1]⟩
abbrev S_ : Shape := ⟨0, ![]⟩
abbrev S3200000x32 : Shape := ⟨2, ![3200000, 32]⟩
abbrev S100000x16 : Shape := ⟨2, ![100000, 16]⟩
abbrev S2000x16 : Shape := ⟨2, ![2000, 16]⟩
abbrev S3200000x16 : Shape := ⟨2, ![3200000, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 41
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32x16, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S100000x32, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x32, .f32⟩
  | .hbm, ⟨17, _⟩ => ⟨S3200000x32, .f32⟩
  | .hbm, ⟨18, _⟩ => ⟨S3200000x32, .f32⟩
  | .hbm, ⟨19, _⟩ => ⟨S_, .f32⟩
  | .hbm, ⟨20, _⟩ => ⟨S100000x32, .f32⟩
  | .hbm, ⟨21, _⟩ => ⟨S3200000x1, .i32⟩
  | .hbm, ⟨22, _⟩ => ⟨S100000x32, .f32⟩
  | .hbm, ⟨23, _⟩ => ⟨S100000x16, .f32⟩
  | .hbm, ⟨24, _⟩ => ⟨S3200000x1, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x16, .f32⟩
  | .hbm, ⟨34, _⟩ => ⟨S3200000x16, .f32⟩
  | .hbm, ⟨35, _⟩ => ⟨S3200000x16, .f32⟩
  | .hbm, ⟨36, _⟩ => ⟨S_, .f32⟩
  | .hbm, ⟨37, _⟩ => ⟨S100000x16, .f32⟩
  | .hbm, ⟨38, _⟩ => ⟨S3200000x1, .i32⟩
  | .hbm, ⟨39, _⟩ => ⟨S100000x16, .f32⟩
  | .hbm, ⟨40, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x16, .f32⟩
  | .local _ .vmem, ⟨8, _⟩ => ⟨S2000x16, .f32⟩
  | .local _ .vmem, ⟨9, _⟩ => ⟨S2000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S2000x32_S2000x32_0_0 : ∀ a, (![0, 0] : Fin 2 → Nat) a + S2000x32.size a ≤ S2000x32.size a
  h_S2000x32 : 0 < S2000x32.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S2000x32_S2000x32 : S2000x32.ShapeCasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  dot_S2000x512_S512x32_S2000x32_1_0_0_1_n_n_wf : DotDims.WF S2000x512 S512x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x16_S2000x16_1_0_0_1_n_n_wf : DotDims.WF S2000x32 S32x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S100000x16.size a
  hwx2_1 : ∀ i : grid2.Coords, EltTy.bits .f32 = 32 ∨ (Rect.block (s := S100000x16) S10000x16.size (cc2_transform_1 i) (hinb2_1 i)).WholeWords (EltTy.packing .f32)

variable [Facts₀]

def dot_S2000x512_S512x32_S2000x32_1_0_0_1_n_n : DotDims S2000x512 S512x32 S2000x32 where
  lhsContracting := [1]
  rhsContracting := [0]
  lhsNonContracting := [0]
  rhsNonContracting := [1]
  lhsBatch := []
  rhsBatch := []
  wf := dot_S2000x512_S512x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x16.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x32 : Shape := ⟨2, ![512, 32]⟩
abbrev S32x16 : Shape := ⟨2, ![32, 16]⟩
abbrev S3200000 : Shape := ⟨1, ![3200000]⟩
abbrev S100000x32 : Shape := ⟨2, ![100000, 32]⟩
abbrev S3200000x1 : Shape := ⟨2, ![3200000, 1]⟩
abbrev S_ : Shape := ⟨0, ![]⟩
abbrev S3200000x32 : Shape := ⟨2, ![3200000, 32]⟩
abbrev S100000x16 : Shape := ⟨2, ![100000, 16]⟩
abbrev S3200000x16 : Shape := ⟨2, ![3200000, 16]⟩
abbrev S100000 : Shape := ⟨1, ![100000]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32x16, .f32⟩
  | .hbm, ⟨3, _⟩ => ⟨S3200000, .i32⟩
  | .hbm, ⟨4, _⟩ => ⟨S3200000, .i32⟩
  | .hbm, ⟨5, _⟩ => ⟨S3200000, .f32⟩
  | .hbm, ⟨6, _⟩ => ⟨S100000x32, .f32⟩
  | .hbm, ⟨7, _⟩ => ⟨S3200000x1, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x32, .f32⟩
  | .hbm, ⟨17, _⟩ => ⟨S3200000x32, .f32⟩
  | .hbm, ⟨18, _⟩ => ⟨S3200000x32, .f32⟩
  | .hbm, ⟨19, _⟩ => ⟨S_, .f32⟩
  | .hbm, ⟨20, _⟩ => ⟨S100000x32, .f32⟩
  | .hbm, ⟨21, _⟩ => ⟨S3200000x1, .i32⟩
  | .hbm, ⟨22, _⟩ => ⟨S100000x32, .f32⟩
  | .hbm, ⟨23, _⟩ => ⟨S_, .f32⟩
  | .hbm, ⟨24, _⟩ => ⟨S100000x32, .f32⟩
  | .hbm, ⟨25, _⟩ => ⟨S100000x32, .f32⟩
  | .hbm, ⟨26, _⟩ => ⟨S100000x16, .f32⟩
  | .hbm, ⟨27, _⟩ => ⟨S3200000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S3200000x16, .f32⟩
  | .hbm, ⟨38, _⟩ => ⟨S3200000x16, .f32⟩
  | .hbm, ⟨39, _⟩ => ⟨S_, .f32⟩
  | .hbm, ⟨40, _⟩ => ⟨S100000x16, .f32⟩
  | .hbm, ⟨41, _⟩ => ⟨S3200000x1, .i32⟩
  | .hbm, ⟨42, _⟩ => ⟨S100000x16, .f32⟩
  | .hbm, ⟨43, _⟩ => ⟨S100000x16, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x16, .f32⟩
  | .hbm, ⟨52, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  dot_S100000x512_S512x32_S100000x32_1_0_0_1_n_n_wf : DotDims.WF S100000x512 S512x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Payload.lean ====
/-
  What each kernel body stores, entry by entry, at the extended reals.

  The first body stores the product of its 2000 × 512 block of X with the whole of W₁ (both passed through a change
  of float format, which is the identity on extended reals), accumulated into zeros: entry (a, b) is
  Σ_c x(a, c) · w(c, b). The second clamps its 2000 × 32 block below at zero before the same kind of product with W₂.
  The third squares its 10000 × 16 block, sums each row, takes the square root, takes the maximum with the constant ε,
  and divides every entry of the row by that.
-/
import proofs.«156589_j11510512353896_1_alg».proof.Proof.Gen.KernelIdeal.Skeleton
import proofs.«156589_j11510512353896_1_alg».proof.Proof.LibPlainMatmul
import Idealize.ShloMosaic.Lib.Pipeline.Value
import Idealize.ShloMosaic.Lib.ValueIdx
import Idealize.ShloMosaic.PureOps.Ideal.Laws

open scoped BigOperators

noncomputable section

namespace Cert.KernelIdeal.Payload

open Cert.KernelIdeal Cert.KernelIdeal.Gen Idealize.ShloMosaic Idealize.ShloMosaic.ValueIdx

/-- The first body's stored value at (a, b): row a of its block of X against column b of W₁. -/
theorem prod_apply (x : Vec Ideal S2000x512 .f32) (w : Vec Ideal S512x32 .f32) (a : Fin 2000) (b : Fin 32) :
    k0_pay1 (F := Ideal) x w (ix2 a b) = ∑ c : Fin 512, x (ix2 a c) * w (ix2 c b) := by
  unfold k0_pay1
  exact PlainMatmul.matmul_zero_apply dot_S2000x512_S512x32_S2000x32_1_0_0_1_n_n
    Facts₀.dot_S2000x512_S512x32_S2000x32_1_0_0_1_n_n_wf rfl none _ _ a b

/-- The second body's stored value at (a, b): row a of its block, clamped below at zero, against column b of W₂. -/
theorem reluProd_apply (x : Vec Ideal S2000x32 .f32) (w : Vec Ideal S32x16 .f32) (a : Fin 2000) (b : Fin 16) :
    k1_pay1 (F := Ideal) x w (ix2 a b) = ∑ c : Fin 32, max (x (ix2 a c)) 0 * w (ix2 c b) := by
  unfold k1_pay1
  refine (PlainMatmul.matmul_zero_apply dot_S2000x32_S32x16_S2000x16_1_0_0_1_n_n
    Facts₀.dot_S2000x32_S32x16_S2000x16_1_0_0_1_n_n_wf rfl none _ _ a b).trans ?_
  refine Finset.sum_congr rfl fun c _ => ?_
  show max (shapeCast S2000x32 x shapeCasts_S2000x32_S2000x32 (ix2 a c)) (Ideal.ofBits .f32 0x00000000#32) * w (ix2 c b) = _
  rw [shapeCast_self, Ideal.ofBits_zero_f32]

/-- Row p with the coordinate c put back on the summed axis is the entry (p, c). -/
theorem lift_row (h : S10000x16.Reduces [1] S10000) (p : Fin 10000) (k : Fin (S10000x16.size 1)) :
    h.lift (ix1 p) k = ix2 p (⟨k.val, k.isLt⟩ : Fin 16) := by
  funext c; apply Fin.ext
  fin_cases c <;> rfl

/-- The third body's stored value at (a, b): the entry divided by the larger of its row's Euclidean norm and ε. -/
theorem rowNorm_apply (x : Vec Ideal S10000x16 .f32) (a : Fin 10000) (b : Fin 16) :
    k2_pay1 (F := Ideal) x (ix2 a b)
      = Ideal.div (x (ix2 a b))
          (max (Ideal.sqrt (∑ c : Fin 16, x (ix2 a c) * x (ix2 a c))) (Ideal.ofBits .f32 0x33D6BF95#32)) := by
  unfold k2_pay1
  dsimp only
  rw [divf_apply, shapeCast_self]
  rw [broadcastTo_apply _ _ (ix2 a b) (ix2 a (0 : Fin 1)) (by intro c; fin_cases c <;> rfl)]
  rw [maximumf_apply, broadcast_apply]
  show Ideal.div _ (max (Ideal.sqrt (shapeCast S10000x1 _ _ (ix2 a (0 : Fin 1)))) _) = _
  rw [shapeCast_apply _ _ (ix2 a (0 : Fin 1)) (ix1 a) (by rw [Shape.rowMajor_val_one, Shape.rowMajor_val_two]; simp)]
  have hsum : multiReduction (F := Ideal) .add [1] S10000 (mulf (x : FVec Ideal S10000x16 .f32) x) 0x00000000#32
        reduces_S10000x16_S10000 (.inl rfl) rfl (ix1 a) = ∑ c : Fin 16, x (ix2 a c) * x (ix2 a c) := by
    refine (Ideal.multiReduction_add_single (φ := .f32) (mulf (x : FVec Ideal S10000x16 .f32) x) _
      reduces_S10000x16_S10000 _ _ (ix1 a)).trans ?_
    refine Finset.sum_congr rfl fun c _ => ?_
    rw [lift_row]
    rfl
  exact congrArg (fun s => Ideal.div (x (ix2 a b)) (max (Ideal.sqrt s) (Ideal.ofBits .f32 0x33D6BF95#32))) hsum

end Cert.KernelIdeal.Payload

end
-- ==== Proof.Spec.lean ====
/-
  The mathematics both programs compute, as whole-array functions over the extended reals.

  A two-layer graph convolution followed by a row normalisation:
    Y₁ = X · W₁,  Z₁ = L · Y₁,  Y₂ = relu(Z₁) · W₂,  Z₂ = L · Y₂,  out = Z₂ / max(‖Z₂ row‖₂, ε).
  The sparse product L · H is the same chain of host operations in both programs, so it is carried as a function
  and never opened; the three dense pieces are stated here entry by entry: a matrix product as the sum over the
  contracted coordinate, the same with the left factor clamped below at zero first, and a row divided by the larger
  of its Euclidean norm and ε. Sums over the extended reals are commutative and associative, which is all the
  comparison of the two programs uses: no input needs to be finite.
-/
import Idealize.ShloMosaic.Lib.ValueIdx
import Idealize.ShloMosaic.PureOps.Ideal.Laws

open scoped BigOperators

noncomputable section

namespace Cert.GraphConv

open Idealize.ShloMosaic Idealize.ShloMosaic.ValueIdx

variable {m k n : Nat}

/-- The product of an m × k matrix by a k × n matrix, at entry (a, b): the sum over c of A(a, c) · B(c, b). -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The same product with every entry of the left factor replaced by its maximum with zero first. -/
def reluProd (A : (⟨2, ![m, k]⟩ : Shape).Idx → EReal) (B : (⟨2, ![k, n]⟩ : Shape).Idx → EReal) :
    (⟨2, ![m, n]⟩ : Shape).Idx → EReal :=
  fun i => ∑ c : Fin k, max (A (ix2 (i 0) c)) 0 * B (ix2 c (i 1))

/-- Each row divided by the larger of its Euclidean norm and ε: entry (a, b) is
    Z(a, b) / max(√(Σ_c Z(a, c)²), ε). -/
def rowNormalize (ε : EReal) (Z : (⟨2, ![m, n]⟩ : Shape).Idx → EReal) : (⟨2, ![m, n]⟩ : Shape).Idx → EReal :=
  fun i => Ideal.div (Z i) (max (Ideal.sqrt (∑ c : Fin n, Z (ix2 (i 0) c) * Z (ix2 (i 0) c))) ε)

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

theorem reluProd_apply (A : (⟨2, ![m, k]⟩ : Shape).Idx → EReal) (B : (⟨2, ![k, n]⟩ : Shape).Idx → EReal)
    (a : Fin m) (b : Fin n) : reluProd A B (ix2 a b) = ∑ c : Fin k, max (A (ix2 a c)) 0 * B (ix2 c b) := rfl

theorem rowNormalize_apply (ε : EReal) (Z : (⟨2, ![m, n]⟩ : Shape).Idx → EReal) (a : Fin m) (b : Fin n) :
    rowNormalize ε Z (ix2 a b)
      = Ideal.div (Z (ix2 a b)) (max (Ideal.sqrt (∑ c : Fin n, Z (ix2 a c) * Z (ix2 a c))) ε) := rfl

end Cert.GraphConv

end
-- ==== Proof.Region0.lean ====
/-
  The first pallas_call, read as a value: whatever its two input arrays hold when it is entered, its output array
  ends holding their matrix product.

  The grid has 50 points; point t stages rows 2000·t … 2000·t + 1999 of the left array (all 512 columns), the whole
  right array, and writes back rows 2000·t … 2000·t + 1999 of the output (all 32 columns). What point t writes back is
  therefore block t of the one whole-array product, and the 50 blocks tile the output: row r lies in block r / 2000.
-/
import proofs.«156589_j11510512353896_1_alg».proof.Proof.Gen.KernelIdeal.Frame
import proofs.«156589_j11510512353896_1_alg».proof.Proof.Payload
import proofs.«156589_j11510512353896_1_alg».proof.Proof.Spec
import Idealize.ShloMosaic.Lib.Pipeline.Value

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The left array (100000 × 512) as the call finds it. -/
abbrev lhs (c : Dev nD) : Vec Ideal S100000x512 .f32 := V c main_arg0
/-- The right array (512 × 32) as the call finds it. -/
abbrev rhs (c : Dev nD) : Vec Ideal S512x32 .f32 := V c main_arg1

theorem hz : (![0, 0] : Fin 2 → Nat) = fun _ => 0 := funext fun a => by fin_cases a <;> rfl

/-- The block index maps over the grid: the left and output windows move down one block of rows per point and
    never sideways; the right window stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 50 := by have h := t.isLt; have e : cfg0.N = 50 := N_0; omega

/-- Row p of block t is row 2000·t + p of the array. -/
def row (t : Fin cfg0.N) (p : Fin 2000) : Fin 100000 := ⟨t.val * 2000 + p.val, by have := point_lt t; have := p.isLt; omega⟩

/-- Where entry (p, k) of the left window's block t sits in the left array. -/
theorem emb_lhs (t : Fin cfg0.N) (p : Fin 2000) (k : Fin 512) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right window's one block is the whole right array. -/
theorem emb_rhs (t : Fin cfg0.N) (k : Fin 512) (q : Fin 32) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 512 + 1 * k.val = k.val; omega
  | ⟨1, _⟩ => show win0_1.index t (1 : Fin 2) * 32 + 1 * q.val = q.val; omega

/-- Where entry (p, q) of the output window's block t sits in the output array. -/
theorem emb_out (t : Fin cfg0.N) (p : Fin 2000) (q : Fin 32) :
    ((cfg0.win 2).blk t).view.emb (ix2 p q) = ix2 (row t p) q := by
  obtain ⟨-, -, -, -, e4, e5⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 32 + 1 * q.val = q.val; omega

/-- What point t writes back is block t of the product of the two arrays as the call finds them. -/
theorem flushed_eq (c : Dev nD) (t : Fin cfg0.N) :
    (dat0 V c).flushed 2 t = ((cfg0.win 2).blk t).view.read (Elt Ideal) (GraphConv.matProd (lhs V c) (rhs V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x32) hz]
  funext j
  obtain ⟨p, q, rfl⟩ : ∃ (p : Fin 2000) (q : Fin 32), j = ix2 p q := ⟨j 0, j 1, eq_ix2 j⟩
  refine (Payload.prod_apply (iblk0 V c 0 t) (iblk0 V c 1 t) p q).trans ?_
  show _ = GraphConv.matProd (lhs V c) (rhs V c) (((cfg0.win 2).blk t).view.emb (ix2 p q))
  rw [emb_out, GraphConv.matProd_apply]
  refine Finset.sum_congr rfl fun k _ => ?_
  show lhs V c (((cfg0.win 0).blk t).view.emb (ix2 p k)) * rhs V c (((cfg0.win 1).blk t).view.emb (ix2 k q)) = _
  rw [emb_lhs, emb_rhs]

/-- An index of the output array is in point t's block iff each coordinate is in the block's range on its axis. -/
theorem mem_blk (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v0).slice (win0_2.rect t)).set ↔ _
  rw [View.set_slice_whole, Rect.mem_set_unit]
  exact Iff.rfl

/-- The 50 blocks tile the output: row r is in block r / 2000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 2000 < cfg0.N := by rw [show cfg0.N = 50 from N_0]; omega
  obtain ⟨-, -, -, -, e4, e5⟩ := idx_facts ⟨(i 0).val / 2000, hN⟩
  refine ⟨⟨(i 0).val / 2000, hN⟩, flush0_2 _, ?_⟩
  rw [mem_blk]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 32 ≤ (i 1).val ∧ (i 1).val < win0_2.index ⟨(i 0).val / 2000, hN⟩ (1 : Fin 2) * 32 + 32
    rw [e5]; omega

/-- The output array after the call: the product of the two input arrays as the call found them. -/
theorem final (c : Dev nD) : (dat0 V c).arrAt 2 cfg0.N = GraphConv.matProd (lhs V c) (rhs V c) :=
  (dat0 V c).arrAt_eq_of_cover 2 _ (fun t _ => flushed_eq V c t) cover

end Cert.KernelIdeal.Region0

end
-- ==== Proof.Region1.lean ====
/-
  The second pallas_call, read as a value: whatever its two input arrays hold when it is entered, its output array
  ends holding the product of the left one, clamped below at zero entry by entry, with the right one.

  The grid has 50 points; point t stages rows 2000·t … 2000·t + 1999 of the left array (all 32 columns), the whole
  right array, and writes back rows 2000·t … 2000·t + 1999 of the output (all 16 columns). What point t writes back is
  block t of the one whole-array function, and the 50 blocks tile the output: row r lies in block r / 2000.
-/
import proofs.«156589_j11510512353896_1_alg».proof.Proof.Gen.KernelIdeal.Frame
import proofs.«156589_j11510512353896_1_alg».proof.Proof.Payload
import proofs.«156589_j11510512353896_1_alg».proof.Proof.Spec
import Idealize.ShloMosaic.Lib.Pipeline.Value

set_option maxRecDepth 16384

open scoped BigOperators

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The left array (100000 × 32) as the call finds it. -/
abbrev lhs (c : Dev nD) : Vec Ideal S100000x32 .f32 := V c main_v13
/-- The right array (32 × 16) as the call finds it. -/
abbrev rhs (c : Dev nD) : Vec Ideal S32x16 .f32 := V c main_arg2

theorem hz : (![0, 0] : Fin 2 → Nat) = fun _ => 0 := funext fun a => by fin_cases a <;> rfl

/-- The block index maps over the grid: the left and output windows move down one block of rows per point and
    never sideways; the right window stays at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 50 := by have h := t.isLt; have e : cfg1.N = 50 := N_1; omega

/-- Row p of block t is row 2000·t + p of the array. -/
def row (t : Fin cfg1.N) (p : Fin 2000) : Fin 100000 := ⟨t.val * 2000 + p.val, by have := point_lt t; have := p.isLt; omega⟩

/-- Where entry (p, k) of the left window's block t sits in the left array. -/
theorem emb_lhs (t : Fin cfg1.N) (p : Fin 2000) (k : Fin 32) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 32 + 1 * k.val = k.val; omega

/-- The right window's one block is the whole right array. -/
theorem emb_rhs (t : Fin cfg1.N) (k : Fin 32) (q : Fin 16) :
    ((cfg1.win 1).blk t).view.emb (ix2 k q) = ix2 k q := by
  obtain ⟨-, -, e2, e3, -⟩ := idx_facts t
  funext a; apply Fin.ext
  match a with
  | ⟨0, _⟩ => show win1_1.index t (0 : Fin 2) * 32 + 1 * k.val = k.val; omega
  | ⟨1, _⟩ => show win1_1.index t (1 : Fin 2) * 16 + 1 * q.val = q.val; omega

/-- Where entry (p, q) of the output window's block t sits in the output array. -/
theorem emb_out (t : Fin cfg1.N) (p : Fin 2000) (q : Fin 16) :
    ((cfg1.win 2).blk t).view.emb (ix2 p q) = ix2 (row t p) q := by
  obtain ⟨-, -, -, -, e4, e5⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 16 + 1 * q.val = q.val; omega

/-- What point t writes back is block t of the clamped product of the two arrays as the call finds them. -/
theorem flushed_eq (c : Dev nD) (t : Fin cfg1.N) :
    (dat1 V c).flushed 2 t = ((cfg1.win 2).blk t).view.read (Elt Ideal) (GraphConv.reluProd (lhs V c) (rhs V c)) := by
  show (cfg1.win 2).cut (grid1.coords t) ((dat1 V c).after 2 t) = _
  rw [after1_2]
  unfold out1_2
  rw [View.canon_unit_zero hz]
  simp only [View.ld_unit_zero (S := S2000x32) hz, View.ld_unit_zero (S := S32x16) hz]
  funext j
  obtain ⟨p, q, rfl⟩ : ∃ (p : Fin 2000) (q : Fin 16), j = ix2 p q := ⟨j 0, j 1, eq_ix2 j⟩
  refine (Payload.reluProd_apply (iblk1 V c 0 t) (iblk1 V c 1 t) p q).trans ?_
  show _ = GraphConv.reluProd (lhs V c) (rhs V c) (((cfg1.win 2).blk t).view.emb (ix2 p q))
  rw [emb_out, GraphConv.reluProd_apply]
  refine Finset.sum_congr rfl fun k _ => ?_
  show max (lhs V c (((cfg1.win 0).blk t).view.emb (ix2 p k))) 0 * rhs V c (((cfg1.win 1).blk t).view.emb (ix2 k q)) = _
  rw [emb_lhs, emb_rhs]

/-- An index of the output array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v14).slice (win1_2.rect t)).set ↔ _
  rw [View.set_slice_whole, Rect.mem_set_unit]
  exact Iff.rfl

/-- The 50 blocks tile the output: row r is in block r / 2000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : (i 0).val / 2000 < cfg1.N := by rw [show cfg1.N = 50 from N_1]; omega
  obtain ⟨-, -, -, -, e4, e5⟩ := idx_facts ⟨(i 0).val / 2000, hN⟩
  refine ⟨⟨(i 0).val / 2000, hN⟩, flush1_2 _, ?_⟩
  rw [mem_blk]
  intro a
  match a with
  | ⟨0, _⟩ =>
    show win1_2.index ⟨(i 0).val / 2000, hN⟩ (0 : Fin 2) * 2000 ≤ (i 0).val ∧ (i 0).val < win1_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, hN⟩ (1 : Fin 2) * 16 ≤ (i 1).val ∧ (i 1).val < win1_2.index ⟨(i 0).val / 2000, hN⟩ (1 : Fin 2) * 16 + 16
    rw [e5]; omega

/-- The output array after the call: the clamped product of the two input arrays as the call found them. -/
theorem final (c : Dev nD) : (dat1 V c).arrAt 2 cfg1.N = GraphConv.reluProd (lhs V c) (rhs V c) :=
  (dat1 V c).arrAt_eq_of_cover 2 _ (fun t _ => flushed_eq V c t) cover

end Cert.KernelIdeal.Region1

end
-- ==== Proof.Region2.lean ====
/-
  The third pallas_call, read as a value: whatever its input array holds when it is entered, its output array ends
  holding that array with every row divided by the larger of the row's Euclidean norm and ε.

  The grid has 10 points; point t stages rows 10000·t … 10000·t + 9999 of the input (all 16 columns, so whole rows)
  and writes back the same rows of the output. A row's norm needs only that row, so what point t writes back is block t
  of the one whole-array function, and the 10 blocks tile the output: row r lies in block r / 10000.
-/
import proofs.«156589_j11510512353896_1_alg».proof.Proof.Gen.KernelIdeal.Frame
import proofs.«156589_j11510512353896_1_alg».proof.Proof.Payload
import proofs.«156589_j11510512353896_1_alg».proof.Proof.Spec
import Idealize.ShloMosaic.Lib.Pipeline.Value

set_option maxRecDepth 16384

open scoped BigOperators

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The input array (100000 × 16) as the call finds it. -/
abbrev inp (c : Dev nD) : Vec Ideal S100000x16 .f32 := V c main_v27

/-- The clamp ε of the norm: the value of the float constant both programs print for 1e-7. -/
abbrev eps : EReal := Ideal.ofBits .f32 0x33D6BF95#32

theorem hz : (![0, 0] : Fin 2 → Nat) = fun _ => 0 := funext fun a => by fin_cases a <;> rfl

/-- The block index maps over the grid: both windows move down one block of rows per point and never sideways. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem point_lt (t : Fin cfg2.N) : t.val < 10 := by have h := t.isLt; have e : cfg2.N = 10 := N_2; omega

/-- Row p of block t is row 10000·t + p of the array. -/
def row (t : Fin cfg2.N) (p : Fin 10000) : Fin 100000 := ⟨t.val * 10000 + p.val, by have := point_lt t; have := p.isLt; omega⟩

/-- Where entry (p, k) of the input window's block t sits in the input array. -/
theorem emb_inp (t : Fin cfg2.N) (p : Fin 10000) (k : Fin 16) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 16 + 1 * k.val = k.val; omega

/-- Where entry (p, q) of the output window's block t sits in the output array. -/
theorem emb_out (t : Fin cfg2.N) (p : Fin 10000) (q : Fin 16) :
    ((cfg2.win 1).blk t).view.emb (ix2 p q) = ix2 (row t p) q := by
  obtain ⟨-, -, e2, e3⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 16 + 1 * q.val = q.val; omega

/-- What point t writes back is block t of the row-normalised input array as the call finds it. -/
theorem flushed_eq (c : Dev nD) (t : Fin cfg2.N) :
    (dat2 V c).flushed 1 t = ((cfg2.win 1).blk t).view.read (Elt Ideal) (GraphConv.rowNormalize eps (inp V c)) := by
  show (cfg2.win 1).cut (grid2.coords t) ((dat2 V c).after 1 t) = _
  rw [after2_1]
  unfold out2_1
  rw [View.canon_unit_zero hz]
  simp only [View.ld_unit_zero (S := S10000x16) hz]
  funext j
  obtain ⟨p, q, rfl⟩ : ∃ (p : Fin 10000) (q : Fin 16), j = ix2 p q := ⟨j 0, j 1, eq_ix2 j⟩
  refine (Payload.rowNorm_apply (iblk2 V c 0 t) p q).trans ?_
  show _ = GraphConv.rowNormalize eps (inp V c) (((cfg2.win 1).blk t).view.emb (ix2 p q))
  rw [emb_out, GraphConv.rowNormalize_apply]
  have hblk : ∀ k : Fin 16, iblk2 V c 0 t (ix2 p k) = inp V c (ix2 (row t p) k) := fun k => by
    show inp V c (((cfg2.win 0).blk t).view.emb (ix2 p k)) = _
    rw [emb_inp]
  rw [hblk q]
  refine congrArg (fun s => Ideal.div (inp V c (ix2 (row t p) q)) (max (Ideal.sqrt s) eps)) ?_
  exact Finset.sum_congr rfl fun k _ => by rw [hblk k]

/-- An index of the output array is in point t's block iff each coordinate is in the block's range on its axis. -/
theorem mem_blk (t : Fin cfg2.N) (i : S100000x16.Idx) :
    i ∈ ((cfg2.win 1).blk t).view.set ↔ ∀ a : Fin 2, win2_1.index t a * S10000x16.size a ≤ (i a).val ∧ (i a).val < win2_1.index t a * S10000x16.size a + S10000x16.size a := by
  show i ∈ ((View.whole main_v28).slice (win2_1.rect t)).set ↔ _
  rw [View.set_slice_whole, Rect.mem_set_unit]
  exact Iff.rfl

/-- The 10 blocks tile the output: row r is in block r / 10000. -/
theorem cover (i : S100000x16.Idx) : ∃ t : Fin cfg2.N, (cfg2.win 1).flush t = true ∧ i ∈ ((cfg2.win 1).blk t).view.set := by
  have hi0 : (i 0).val < 100000 := (i 0).isLt
  have hi1 : (i 1).val < 16 := (i 1).isLt
  have hN : (i 0).val / 10000 < cfg2.N := by rw [show cfg2.N = 10 from N_2]; omega
  obtain ⟨-, -, e2, e3⟩ := idx_facts ⟨(i 0).val / 10000, hN⟩
  refine ⟨⟨(i 0).val / 10000, hN⟩, flush2_1 _, ?_⟩
  rw [mem_blk]
  intro a
  match a with
  | ⟨0, _⟩ =>
    show win2_1.index ⟨(i 0).val / 10000, hN⟩ (0 : Fin 2) * 10000 ≤ (i 0).val ∧ (i 0).val < win2_1.index ⟨(i 0).val / 10000, hN⟩ (0 : Fin 2) * 10000 + 10000
    rw [e2]; show (i 0).val / 10000 * 10000 ≤ (i 0).val ∧ (i 0).val < (i 0).val / 10000 * 10000 + 10000; omega
  | ⟨1, _⟩ =>
    show win2_1.index ⟨(i 0).val / 10000, hN⟩ (1 : Fin 2) * 16 ≤ (i 1).val ∧ (i 1).val < win2_1.index ⟨(i 0).val / 10000, hN⟩ (1 : Fin 2) * 16 + 16
    rw [e3]; omega

/-- The output array after the call: the input array as the call found it, row-normalised. -/
theorem final (c : Dev nD) : (dat2 V c).arrAt 1 cfg2.N = GraphConv.rowNormalize eps (inp V c) :=
  (dat2 V c).arrAt_eq_of_cover 1 _ (fun t _ => flushed_eq V c t) cover

end Cert.KernelIdeal.Region2

end
-- ==== Proof.Sparse.lean ====
/-
  The sparse product L · H, carried whole.

  Both programs multiply by the sparse matrix L — given as 3,200,000 (row, column, value) triples — with the same host
  operations: a negative column index is shifted up by the number of nodes, row "column index" of H is gathered for
  every triple, scaled by the triple's value, and the scaled rows are summed into the output rows the triples name,
  starting from zeros. Nothing in the comparison of the two programs looks inside this chain: it is applied to equal
  arguments on both sides. It is named here, once for H of 32 columns and once for 16, so that each side can state its
  intermediate arrays through it.
-/
import proofs.«156589_j11510512353896_1_alg».proof.Proof.Gen.ReferenceIdeal
import Idealize.ShloMosaic.PureOps.Ideal

noncomputable section

namespace Cert.ReferenceIdeal.Sparse

open Cert.ReferenceIdeal Cert.ReferenceIdeal.Gen Idealize.ShloMosaic

/-- L · H for H of 32 columns: the triples' rows, columns and values, then H. -/
def times32 (rows cols : IVec S3200000 32) (vals : FVec Ideal S3200000 .f32) (H : FVec Ideal S100000x32 .f32) :
    FVec Ideal S100000x32 .f32 :=
  Host.scatterAdd scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 rows)
    (mulf (broadcastInDim S3200000x32 ![0, 1] bcast_S3200000x1_S3200000x32_0_1 (broadcastInDim S3200000x1 ![0] bcast_S3200000_S3200000x1_0 vals))
      (Host.gather gather_S100000x32_S3200000x1_S3200000x32_1_0_n_n_0_1_132 H
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

/-- L · H for H of 16 columns. -/
def times16 (rows cols : IVec S3200000 32) (vals : FVec Ideal S3200000 .f32) (H : FVec Ideal S100000x16 .f32) :
    FVec Ideal S100000x16 .f32 :=
  Host.scatterAdd scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 rows)
    (mulf (broadcastInDim S3200000x16 ![0, 1] bcast_S3200000x1_S3200000x16_0_1 (broadcastInDim S3200000x1 ![0] bcast_S3200000_S3200000x1_0 vals))
      (Host.gather gather_S100000x16_S3200000x1_S3200000x16_1_0_n_n_0_1_116 H
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

end Cert.ReferenceIdeal.Sparse

end
-- ==== Proof.KernelResult.lean ====
/-
  The kernel program's result as a function of its arguments.

  @main is: the first pallas_call; a stretch of host operations (the sparse product, 32 columns); the second
  pallas_call; another stretch (the sparse product, 16 columns); the third pallas_call. The contents of the buffers at
  the five boundaries are followed from the launch: the first call leaves X · W₁ in its output array and touches nothing
  else; the first stretch writes L · (X · W₁) and leaves the arguments alone; the second call leaves the clamped product
  with W₂; the second stretch writes L applied to that; the third call leaves its row normalisation in the result.
-/
import proofs.«156589_j11510512353896_1_alg».proof.Proof.Gen.KernelIdeal.Frame
import proofs.«156589_j11510512353896_1_alg».proof.Proof.KernelIdealRun
import proofs.«156589_j11510512353896_1_alg».proof.Proof.Region0
import proofs.«156589_j11510512353896_1_alg».proof.Proof.Region1
import proofs.«156589_j11510512353896_1_alg».proof.Proof.Region2
import proofs.«156589_j11510512353896_1_alg».proof.Proof.Sparse
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal (Sparse.times32 Sparse.times16)

variable (m : (ℓ : Loc nD τ sig) → Buf (Elt Ideal) ℓ) (ρ : Dev nD → PrngReg)

/-- The arguments as launched, at their literal types. -/
abbrev argX (c : Dev nD) : FVec Ideal S100000x512 .f32 := m ((c : Thread nD τ).loc main_arg0)
abbrev argW1 (c : Dev nD) : FVec Ideal S512x32 .f32 := m ((c : Thread nD τ).loc main_arg1)
abbrev argW2 (c : Dev nD) : FVec Ideal S32x16 .f32 := m ((c : Thread nD τ).loc main_arg2)
abbrev argRows (c : Dev nD) : IVec S3200000 32 := m ((c : Thread nD τ).loc main_arg3)
abbrev argCols (c : Dev nD) : IVec S3200000 32 := m ((c : Thread nD τ).loc main_arg4)
abbrev argVals (c : Dev nD) : FVec Ideal S3200000 .f32 := m ((c : Thread nD τ).loc main_arg5)

/-- The clamp ε of the norm. -/
abbrev eps : EReal := Ideal.ofBits .f32 0x33D6BF95#32

/-- X · W₁. -/
abbrev layer1 (c : Dev nD) := GraphConv.matProd (argX m c) (argW1 m c)
/-- L · (X · W₁). -/
abbrev spread1 (c : Dev nD) := Sparse.times32 (argRows m c) (argCols m c) (argVals m c) (layer1 m c)
/-- relu(L · (X · W₁)) · W₂. -/
abbrev layer2 (c : Dev nD) := GraphConv.reluProd (spread1 m c) (argW2 m c)
/-- L · (relu(L · (X · W₁)) · W₂). -/
abbrev spread2 (c : Dev nD) := Sparse.times16 (argRows m c) (argCols m c) (argVals m c) (layer2 m c)
/-- The whole result: the row normalisation of the second sparse product. -/
abbrev out (c : Dev nD) := GraphConv.rowNormalize eps (spread2 m c)

/-! ## After the first call -/

theorem at1_W2 (c : Dev nD) : W1 m ρ c (Proc.devRef .tc main_arg2) = argW2 m c := W1_of_ne m ρ c main_arg2 (by decide)
theorem at1_rows (c : Dev nD) : W1 m ρ c (Proc.devRef .tc main_arg3) = argRows m c := W1_of_ne m ρ c main_arg3 (by decide)
theorem at1_cols (c : Dev nD) : W1 m ρ c (Proc.devRef .tc main_arg4) = argCols m c := W1_of_ne m ρ c main_arg4 (by decide)
theorem at1_vals (c : Dev nD) : W1 m ρ c (Proc.devRef .tc main_arg5) = argVals m c := W1_of_ne m ρ c main_arg5 (by decide)

theorem at1_layer1 (c : Dev nD) : W1 m ρ c (Proc.devRef .tc main_v0) = layer1 m c :=
  (W1_arr m ρ c 2).trans (Region0.final (V0 m ρ) c)

/-! ## After the first stretch of host operations -/

theorem at2_W2 (c : Dev nD) : W2 m ρ c (Proc.devRef .tc main_arg2) = argW2 m c := by
  show StableHlo.after hostOps1 (W1 m ρ c) (Proc.devRef .tc main_arg2) = _
  dsimp only [hostOps1]
  after_results
  exact at1_W2 m ρ c
theorem at2_rows (c : Dev nD) : W2 m ρ c (Proc.devRef .tc main_arg3) = argRows m c := by
  show StableHlo.after hostOps1 (W1 m ρ c) (Proc.devRef .tc main_arg3) = _
  dsimp only [hostOps1]
  after_results
  exact at1_rows m ρ c
theorem at2_cols (c : Dev nD) : W2 m ρ c (Proc.devRef .tc main_arg4) = argCols m c := by
  show StableHlo.after hostOps1 (W1 m ρ c) (Proc.devRef .tc main_arg4) = _
  dsimp only [hostOps1]
  after_results
  exact at1_cols m ρ c
theorem at2_vals (c : Dev nD) : W2 m ρ c (Proc.devRef .tc main_arg5) = argVals m c := by
  show StableHlo.after hostOps1 (W1 m ρ c) (Proc.devRef .tc main_arg5) = _
  dsimp only [hostOps1]
  after_results
  exact at1_vals m ρ c

/-- The stretch's last operation leaves the sparse product of the first call's output. -/
theorem at2_spread1 (c : Dev nD) : W2 m ρ c (Proc.devRef .tc main_v13) = spread1 m c := by
  show StableHlo.after hostOps1 (W1 m ρ c) (Proc.devRef .tc main_v13) = _
  dsimp only [hostOps1]
  after_results
  rw [at1_layer1, at1_rows, at1_cols, at1_vals]
  rfl

/-! ## After the second call -/

theorem at3_rows (c : Dev nD) : W3 m ρ c (Proc.devRef .tc main_arg3) = argRows m c :=
  (W3_of_ne m ρ c main_arg3 (by decide)).trans (at2_rows m ρ c)
theorem at3_cols (c : Dev nD) : W3 m ρ c (Proc.devRef .tc main_arg4) = argCols m c :=
  (W3_of_ne m ρ c main_arg4 (by decide)).trans (at2_cols m ρ c)
theorem at3_vals (c : Dev nD) : W3 m ρ c (Proc.devRef .tc main_arg5) = argVals m c :=
  (W3_of_ne m ρ c main_arg5 (by decide)).trans (at2_vals m ρ c)

theorem at3_layer2 (c : Dev nD) : W3 m ρ c (Proc.devRef .tc main_v14) = layer2 m c :=
  (W3_arr m ρ c 2).trans ((Region1.final (V2 m ρ) c).trans
    (congrArg₂ GraphConv.reluProd (at2_spread1 m ρ c) (at2_W2 m ρ c)))

/-! ## After the second stretch of host operations -/

theorem at4_spread2 (c : Dev nD) : W4 m ρ c (Proc.devRef .tc main_v27) = spread2 m c := by
  show StableHlo.after hostOps2 (W3 m ρ c) (Proc.devRef .tc main_v27) = _
  dsimp only [hostOps2]
  after_results
  rw [at3_layer2, at3_rows, at3_cols, at3_vals]
  rfl

/-! ## After the third call, and the run -/

theorem at5_out (c : Dev nD) : W5 m ρ c (Proc.devRef .tc main_v28) = out m c :=
  (W5_arr m ρ c 1).trans ((Region2.final (V4 m ρ) c).trans
    (congrArg (GraphConv.rowNormalize eps) (at4_spread2 m ρ c)))

/-- Every weakly fair execution of the kernel program terminates, nothing faulting, with the result at the row
    normalisation of L · (relu(L · (X · W₁)) · W₂) of its launch arguments, and the arguments unchanged. -/
theorem run : θ_run defs (onTc (τ := τ) (main (F := Ideal))) ⟨m, fun _ => 0, ρ⟩ (fun r => ∀ c : Dev nD,
      r.2.mem ((c.tc : Thread nD τ).loc main_v28) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at5_out m ρ c), (h c).2⟩) (Run.run m ρ)

end Cert.KernelIdeal.Result

end
-- ==== Proof.RefValue.lean ====
/-
  The reference's result, stage by stage, is the composition of the three dense pieces and the sparse product.

  Its first dot_general is the matrix product X · W₁ (the sum over the contracted coordinate); the relu it calls and
  its second dot_general together are the product clamped below at zero; its norm (multiply, sum over axis 1 from the
  constant zero, broadcast back, square root), the maximum with the broadcast constant ε, the broadcast along the row
  and the division are the row normalisation. The gather / scale / scatter-add chains between them are the sparse
  product by definition.
-/
import proofs.«156589_j11510512353896_1_alg».proof.Proof.Gen.ReferenceIdeal.Read
import proofs.«156589_j11510512353896_1_alg».proof.Proof.Spec
import proofs.«156589_j11510512353896_1_alg».proof.Proof.Sparse

open scoped BigOperators

noncomputable section

namespace Cert.ReferenceIdeal.RefValue

open Cert.ReferenceIdeal Cert.ReferenceIdeal.Gen Cert.ReferenceIdeal.Read
open Idealize.ShloMosaic Idealize.ShloMosaic.ValueIdx

/-- The clamp ε of the norm: the value of the float constant both programs print for 1e-7. -/
abbrev eps : EReal := Ideal.ofBits .f32 0x33D6BF95#32

variable (x0 : FVec Ideal S100000x512 .f32) (x1 : FVec Ideal S512x32 .f32) (x2 : FVec Ideal S32x16 .f32)
  (x3 x4 : IVec S3200000 32) (x5 : FVec Ideal S3200000 .f32)

/-- The first dot_general is X · W₁. -/
theorem stage_prod : val_main_v0 (F := Ideal) x0 x1 = GraphConv.matProd x0 x1 := by
  funext i
  obtain ⟨a, b, rfl⟩ : ∃ (a : Fin 100000) (b : Fin 32), i = ix2 a b := ⟨i 0, i 1, eq_ix2 i⟩
  rw [val_main_v0_apply, GraphConv.matProd_apply]
  refine Finset.sum_congr rfl fun k _ => ?_
  have el : lidx_main_v0 (ix2 a b) k = ix2 a k := funext fun d => by match d with | ⟨0, _⟩ => rfl | ⟨1, _⟩ => rfl
  have er : ridx_main_v0 (ix2 a b) k = ix2 k b := funext fun d => by match d with | ⟨0, _⟩ => rfl | ⟨1, _⟩ => rfl
  exact congrArg₂ (· * ·) (congrArg x0 el) (congrArg x1 er)

/-- The first gather / scale / scatter-add chain is L · (X · W₁). -/
theorem stage_sparse32 :
    val_main_v13 (F := Ideal) x0 x1 x3 x4 x5 = Sparse.times32 x3 x4 x5 (val_main_v0 (F := Ideal) x0 x1) := rfl

/-- The relu and the second dot_general are the clamped product with W₂. -/
theorem stage_reluProd :
    val_main_v15 (F := Ideal) x0 x1 x2 x3 x4 x5 = GraphConv.reluProd (val_main_v13 (F := Ideal) x0 x1 x3 x4 x5) x2 := by
  funext i
  obtain ⟨a, b, rfl⟩ : ∃ (a : Fin 100000) (b : Fin 16), i = ix2 a b := ⟨i 0, i 1, eq_ix2 i⟩
  rw [val_main_v15_apply, GraphConv.reluProd_apply]
  refine Finset.sum_congr rfl fun k _ => ?_
  have el : lidx_main_v15 (ix2 a b) k = ix2 a k := funext fun d => by match d with | ⟨0, _⟩ => rfl | ⟨1, _⟩ => rfl
  have er : ridx_main_v15 (ix2 a b) k = ix2 k b := funext fun d => by match d with | ⟨0, _⟩ => rfl | ⟨1, _⟩ => rfl
  rw [el, er, val_main_v14_apply, val_main_call0_v0_apply, val_main_call0_cst_apply]
  simp only [Ideal.maximumf_def, Ideal.ofBits_def, Ideal.ofBits_zero_f32]

/-- The second gather / scale / scatter-add chain is L applied to the clamped product. -/
theorem stage_sparse16 :
    val_main_v28 (F := Ideal) x0 x1 x2 x3 x4 x5 = Sparse.times16 x3 x4 x5 (val_main_v15 (F := Ideal) x0 x1 x2 x3 x4 x5) := rfl

/-- The norm, the clamp at ε and the division are the row normalisation. -/
theorem stage_rowNormalize :
    val_main_v33 (F := Ideal) x0 x1 x2 x3 x4 x5
      = GraphConv.rowNormalize eps (val_main_v28 (F := Ideal) x0 x1 x2 x3 x4 x5) := by
  funext i
  obtain ⟨a, b, rfl⟩ : ∃ (a : Fin 100000) (b : Fin 16), i = ix2 a b := ⟨i 0, i 1, eq_ix2 i⟩
  rw [val_main_v33_apply, val_main_v32_apply, val_main_v31_apply, val_main_v29_apply, val_main_call1_v2_apply,
    val_main_call1_v1_apply, val_main_v30_apply, val_main_cst_4_apply, val_main_call1_cst_apply,
    GraphConv.rowNormalize_apply]
  simp only [Ideal.hostDivf_def, Ideal.maximumf_def, Ideal.hostUnary_sqrt_def, Ideal.ofBits_def, Ideal.ofBits_zero_f32, zero_add]
  refine congrArg (fun s => Ideal.div (val_main_v28 (F := Ideal) x0 x1 x2 x3 x4 x5 (ix2 a b)) (max (Ideal.sqrt s) eps)) ?_
  refine Finset.sum_congr rfl fun k _ => ?_
  rw [val_main_call1_v0_apply]
  have e : idx_main_call1_v1 (idx_main_call1_v2 (idx_main_v32 (ix2 a b))) k = ix2 a k :=
    funext fun d => by match d with | ⟨0, _⟩ => rfl | ⟨1, _⟩ => rfl
  rw [e]
  rfl

/-- The reference's result is the row normalisation of L · (relu(L · (X · W₁)) · W₂). -/
theorem result_eq :
    val_main_v33 (F := Ideal) x0 x1 x2 x3 x4 x5
      = GraphConv.rowNormalize eps (Sparse.times16 x3 x4 x5
          (GraphConv.reluProd (Sparse.times32 x3 x4 x5 (GraphConv.matProd x0 x1)) x2)) := by
  rw [stage_rowNormalize, stage_sparse16, stage_reluProd, stage_sparse32, stage_prod]

end Cert.ReferenceIdeal.RefValue

end
-- ==== Proof.lean ====
/-
  Both programs compute, at the extended reals, the row normalisation of L · (relu(L · (X · W₁)) · W₂):
  a two-layer graph convolution over a sparse matrix L given as (row, column, value) triples, each row of the result
  divided by the larger of its Euclidean norm and ε.

  The kernel program does the three dense steps in three pallas_calls — X · W₁ in 50 blocks of 2000 rows, the product
  with W₂ of the first sparse product clamped below at zero in 50 blocks of 2000 rows, and the row normalisation in 10
  blocks of 10000 rows — and the two sparse products on the host between them. The reference does everything on the
  host. A change of float format is the identity on extended reals; a matrix product accumulated into zeros and the
  host's dot_general are the same sum over the contracted coordinate; a lane sum and the host's reduce are the same sum
  over a row; and the host operations of the sparse product are the same on both sides. Each block a pallas_call writes
  back is a block of one whole-array function and the blocks tile the output (Region0, Region1, Region2), so the
  buffers at the five boundaries of the kernel's @main can be followed from the launch (KernelResult); the reference's
  stages are the same functions (RefValue). No step uses finiteness of the inputs.

  The two kernel frames are the generated frame certificates; the reference's frame is its run with the result dropped;
  the idealization rewrote no operation.
-/
import proofs.«156589_j11510512353896_1_alg».proof.Defs
import proofs.«156589_j11510512353896_1_alg».proof.Proof.Gen.Kernel
import proofs.«156589_j11510512353896_1_alg».proof.Proof.Gen.Kernel.Skeleton
import proofs.«156589_j11510512353896_1_alg».proof.Proof.Gen.Kernel.Launch
import proofs.«156589_j11510512353896_1_alg».proof.Proof.Gen.Kernel.Points
import proofs.«156589_j11510512353896_1_alg».proof.Proof.Gen.Kernel.Frame
import proofs.«156589_j11510512353896_1_alg».proof.Proof.Gen.KernelIdeal
import proofs.«156589_j11510512353896_1_alg».proof.Proof.Gen.KernelIdeal.Skeleton
import proofs.«156589_j11510512353896_1_alg».proof.Proof.Gen.KernelIdeal.Launch
import proofs.«156589_j11510512353896_1_alg».proof.Proof.Gen.KernelIdeal.Points
import proofs.«156589_j11510512353896_1_alg».proof.Proof.Gen.KernelIdeal.Frame
import proofs.«156589_j11510512353896_1_alg».proof.Proof.Gen.ReferenceIdeal
import proofs.«156589_j11510512353896_1_alg».proof.Proof.Gen.Pre_finite_inputs
import proofs.«156589_j11510512353896_1_alg».proof.Proof.Gen.ReferenceIdeal.Run
import proofs.«156589_j11510512353896_1_alg».proof.Proof.Gen.ReferenceIdeal.Read
import proofs.«156589_j11510512353896_1_alg».proof.Proof.KernelResult
import proofs.«156589_j11510512353896_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the same array: the row normalisation of
    L · (relu(L · (X · W₁)) · W₂) of those arguments. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
